-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S600000 32) (main_arg2 : IVec S600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S4000x128 : Shape := ⟨2, ![4000, 128]⟩

abbrev nBuf : Space → Nat
  | .hbm => 36
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S100000x128, .f32⟩
  | .hbm, ⟨18, _⟩ => ⟨S600000x1, .i32⟩
  | .hbm, ⟨19, _⟩ => ⟨S100000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S100000x128, .f32⟩
  | .hbm, ⟨31, _⟩ => ⟨S600000x1, .i32⟩
  | .hbm, ⟨32, _⟩ => ⟨S100000x128, .f32⟩
  | .hbm, ⟨33, _⟩ => ⟨S1x128, .f32⟩
  | .hbm, ⟨34, _⟩ => ⟨S1x128, .f32⟩
  | .hbm, ⟨35, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S100000x128, .f32⟩
  | .hbm, ⟨18, _⟩ => ⟨S600000x1, .i32⟩
  | .hbm, ⟨19, _⟩ => ⟨S100000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S100000x128, .f32⟩
  | .hbm, ⟨31, _⟩ => ⟨S600000x1, .i32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Perceptron.lean ====
/-
  A two-layer perceptron applied to every row of the entrywise sum of three stacks of rows.
  For stacks `A`, `B`, `C` of `M` rows of length `K`, a first weight matrix `Wh` (`K` by `H`) with a bias row `bh`,
  and a second weight matrix `Wo` (`H` by `N`) with a bias row `bo`, the entry at (r, c) is
    ∑ j, max (∑ k, (A (r, k) + B (r, k) + C (r, k)) * Wh (k, j) + bh (0, j)) 0 * Wo (j, c) + bo (0, c).
  Row `r` of the result depends on row `r` of the three stacks only, so a block of rows of the result is the
  same function of the same block of rows of the stacks.
-/
import proofs.«105517_j80221399155534_1_alg».proof.Proof.LibPlainDot

noncomputable section

namespace Cert.Perceptron

open Idealize.ShloMosaic Idealize.ShloMosaic.ValueIdx Cert.PlainDot

variable {M M' K H N : Nat}

/-- The perceptron on `M` rows. -/
def mlp (A B C : (⟨2, ![M, K]⟩ : Shape).Idx → EReal) (Wh : (⟨2, ![K, H]⟩ : Shape).Idx → EReal)
    (bh : (⟨2, ![1, H]⟩ : Shape).Idx → EReal) (Wo : (⟨2, ![H, N]⟩ : Shape).Idx → EReal)
    (bo : (⟨2, ![1, N]⟩ : Shape).Idx → EReal) : (⟨2, ![M, N]⟩ : Shape).Idx → EReal :=
  affine (affineRelu (fun i => A i + B i + C i) Wh bh) Wo bo

/-- A matrix product plus a bias row, at (r, c), reads its left operand on row r only. -/
theorem affine_row (A' : (⟨2, ![M', K]⟩ : Shape).Idx → EReal) (A : (⟨2, ![M, K]⟩ : Shape).Idx → EReal)
    (W : (⟨2, ![K, N]⟩ : Shape).Idx → EReal) (b : (⟨2, ![1, N]⟩ : Shape).Idx → EReal)
    (r' : Fin M') (r : Fin M) (c : Fin N) (h : ∀ k : Fin K, A' (ix2 r' k) = A (ix2 r k)) :
    affine A' W b (ix2 r' c) = affine A W b (ix2 r c) := by
  show (∑ k : Fin K, A' (ix2 r' k) * W (ix2 k c)) + b (ix2 (0 : Fin 1) c)
      = (∑ k : Fin K, A (ix2 r k) * W (ix2 k c)) + b (ix2 (0 : Fin 1) c)
  rw [Finset.sum_congr rfl fun k _ => by rw [h k]]

/-- The same with the rectifier after it. -/
theorem affineRelu_row (A' : (⟨2, ![M', K]⟩ : Shape).Idx → EReal) (A : (⟨2, ![M, K]⟩ : Shape).Idx → EReal)
    (W : (⟨2, ![K, N]⟩ : Shape).Idx → EReal) (b : (⟨2, ![1, N]⟩ : Shape).Idx → EReal)
    (r' : Fin M') (r : Fin M) (c : Fin N) (h : ∀ k : Fin K, A' (ix2 r' k) = A (ix2 r k)) :
    affineRelu A' W b (ix2 r' c) = affineRelu A W b (ix2 r c) := by
  show max (affine A' W b (ix2 r' c)) _ = max (affine A W b (ix2 r c)) _
  rw [affine_row A' A W b r' r c h]

/-- ROW LOCALITY: if row `r'` of the stacks `A'`, `B'`, `C'` is row `r` of `A`, `B`, `C`, and the weights and
    bias rows are the same, the perceptron's row `r'` on the former is its row `r` on the latter. -/
theorem mlp_row (A' B' C' : (⟨2, ![M', K]⟩ : Shape).Idx → EReal) (A B C : (⟨2, ![M, K]⟩ : Shape).Idx → EReal)
    (Wh' Wh : (⟨2, ![K, H]⟩ : Shape).Idx → EReal) (bh' bh : (⟨2, ![1, H]⟩ : Shape).Idx → EReal)
    (Wo' Wo : (⟨2, ![H, N]⟩ : Shape).Idx → EReal) (bo' bo : (⟨2, ![1, N]⟩ : Shape).Idx → EReal)
    (r' : Fin M') (r : Fin M) (c : Fin N)
    (hA : ∀ k : Fin K, A' (ix2 r' k) = A (ix2 r k)) (hB : ∀ k : Fin K, B' (ix2 r' k) = B (ix2 r k))
    (hC : ∀ k : Fin K, C' (ix2 r' k) = C (ix2 r k))
    (hWh : Wh' = Wh) (hbh : bh' = bh) (hWo : Wo' = Wo) (hbo : bo' = bo) :
    mlp A' B' C' Wh' bh' Wo' bo' (ix2 r' c) = mlp A B C Wh bh Wo bo (ix2 r c) := by
  subst hWh hbh hWo hbo
  unfold mlp
  refine affine_row _ _ _ _ r' r c fun j => ?_
  refine affineRelu_row _ _ _ _ r' r j fun k => ?_
  show A' (ix2 r' k) + B' (ix2 r' k) + C' (ix2 r' k) = A (ix2 r k) + B (ix2 r k) + C (ix2 r k)
  rw [hA k, hB k, hC k]

end Cert.Perceptron

end
-- ==== Proof.Body.lean ====
/-
  The kernel body's stored value, read at the extended reals: the two-layer perceptron on the block's rows.
  The body adds its three blocks of 4000 rows, multiplies by the first weight matrix into a zero accumulator, adds the
  first bias row, takes the maximum with zero, multiplies by the second weight matrix into a zero accumulator and
  adds the second bias row. The two roundings to the narrower float format before each product are the identity at
  the extended reals, and a product into a zero accumulator is the plain sum of products.
-/
import proofs.«105517_j80221399155534_1_alg».proof.Proof.Gen.KernelIdeal.Skeleton
import proofs.«105517_j80221399155534_1_alg».proof.Proof.Perceptron
import Idealize.ShloMosaic.Lib.Pipeline.Value

noncomputable section

namespace Cert.KernelIdeal.Body

open Cert.KernelIdeal Cert.KernelIdeal.Gen Idealize.ShloMosaic Idealize.ShloMosaic.ValueIdx Cert.PlainDot

/-- The body's contraction record is the plain rows-by-columns one. -/
theorem dot_eq : dot_S4000x128_S128x128_S4000x128_1_0_0_1_n_n = DotDims.plain 4000 128 128 := rfl

/-- The stored value is the perceptron of the seven loaded blocks. -/
theorem pay_eq (x0 x1 x2 : FVec Ideal S4000x128 .f32) (x3 : FVec Ideal S128x128 .f32) (x4 : FVec Ideal S1x128 .f32)
    (x5 : FVec Ideal S128x128 .f32) (x6 : FVec Ideal S1x128 .f32) :
    k0_pay1 (F := Ideal) x0 x1 x2 x3 x4 x5 x6 = Cert.Perceptron.mlp (M := 4000) x0 x1 x2 x3 x4 x5 x6 := by
  unfold k0_pay1
  simp only [shapeCast_self, dot_eq]
  show addf (matmul (DotDims.plain 4000 128 128) none
        (truncf .bf16 (maximumf (addf (matmul (DotDims.plain 4000 128 128) none (truncf .bf16 (addf (addf x0 x1) x2) bitsLt_bf16_f32)
          (truncf .bf16 x3 bitsLt_bf16_f32) (constant (⟨2, ![4000, 128]⟩ : Shape) .f32 0x00000000#32))
          (broadcastTo (⟨2, ![4000, 128]⟩ : Shape) x4 broadcasts_S1x128_S4000x128))
          (broadcast (⟨2, ![4000, 128]⟩ : Shape) (Scalar.ofBits (F := Ideal) .f32 0x00000000#32))) bitsLt_bf16_f32)
        (truncf .bf16 x5 bitsLt_bf16_f32) (constant (⟨2, ![4000, 128]⟩ : Shape) .f32 0x00000000#32))
      (broadcastTo (⟨2, ![4000, 128]⟩ : Shape) x6 broadcasts_S1x128_S4000x128) = _
  rw [matmul_add_row_max_eq, matmul_add_row_eq]
  rfl

end Cert.KernelIdeal.Body

end
-- ==== Proof.Entry.lean ====
/-
  The arrays as the kernel's region finds them. Before the region the host gathers the rows of the feature array at the
  (wrapped) indices of one edge-end array and scatter-adds them into a zero array at the indices of the other, in both
  directions, and reshapes the two bias vectors into one-row arrays. Each of these four arrays, when the region is
  entered, is that host term of the launch contents of the arguments.
-/
import proofs.«105517_j80221399155534_1_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem

variable (m : (ℓ : Loc nD τ sig) → Buf (Elt Ideal) ℓ)

/-- An index array with its negative entries wrapped by the number of rows. -/
def wrapped (idx : (⟨S600000, .i32⟩ : BufTy).Contents (Elt Ideal)) : (⟨S600000, .i32⟩ : BufTy).Contents (Elt Ideal) :=
  select (cmpi .slt idx (broadcastInDim S600000 ![] bcast_S_S600000 (constantI S_ 32 0#32)))
    (addi idx (broadcastInDim S600000 ![] bcast_S_S600000 (constantI S_ 32 100000#32))) idx

/-- The rows of `x` at the wrapped indices `src`, added into a zero array at the rows `dst`. -/
def aggregate (x : (⟨S100000x128, .f32⟩ : BufTy).Contents (Elt Ideal)) (dst src : (⟨S600000, .i32⟩ : BufTy).Contents (Elt Ideal)) :
    (⟨S100000x128, .f32⟩ : BufTy).Contents (Elt Ideal) :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 x
      (broadcastInDim S600000x1 ![0] bcast_S600000_S600000x1_0 (wrapped src)))

set_option maxHeartbeats 2000000 in
/-- The first aggregate: gathered at the second index array, scattered at the first. -/
theorem entry_v9 (c : Dev nD) : (V m c main_v9 : S100000x128.Idx → EReal)
    = aggregate (m ((c : Thread nD τ).loc main_arg0)) (m ((c : Thread nD τ).loc main_arg1)) (m ((c : Thread nD τ).loc main_arg2)) := by
  dsimp only [V, hostOps0]; after_results; rfl

set_option maxHeartbeats 2000000 in
/-- The second aggregate: gathered at the first index array, scattered at the second. -/
theorem entry_v19 (c : Dev nD) : (V m c main_v19 : S100000x128.Idx → EReal)
    = aggregate (m ((c : Thread nD τ).loc main_arg0)) (m ((c : Thread nD τ).loc main_arg2)) (m ((c : Thread nD τ).loc main_arg1)) := by
  dsimp only [V, hostOps0]; after_results; rfl

set_option maxHeartbeats 2000000 in
/-- The first bias vector as a one-row array. -/
theorem entry_v20 (c : Dev nD) : (V m c main_v20 : S1x128.Idx → EReal)
    = shapeCast S1x128 (m ((c : Thread nD τ).loc main_arg4)) shapeCasts_S128_S1x128 := by
  dsimp only [V, hostOps0]; after_results; rfl

set_option maxHeartbeats 2000000 in
/-- The second bias vector as a one-row array. -/
theorem entry_v21 (c : Dev nD) : (V m c main_v21 : S1x128.Idx → EReal)
    = shapeCast S1x128 (m ((c : Thread nD τ).loc main_arg6)) shapeCasts_S128_S1x128 := by
  dsimp only [V, hostOps0]; after_results; rfl

end Cert.KernelIdeal.Entry

end
-- ==== Proof.Whole.lean ====
/-
  From blocks to the whole array. The grid has 25 points; point t stages rows 4000 t … 4000 t + 3999 of the feature
  array and of the two aggregates, the whole of both weight matrices and both bias rows, and writes back rows
  4000 t … 4000 t + 3999 of the result. Since the perceptron's row r depends on row r of the three stacks only, what
  point t writes back is that block of rows of the perceptron of the WHOLE arrays; the 25 blocks tile the result, so
  after the run the result array is the perceptron of the arrays as the region found them.
-/
import proofs.«105517_j80221399155534_1_alg».proof.Proof.Gen.KernelIdeal.Value
import proofs.«105517_j80221399155534_1_alg».proof.Proof.Body
import proofs.«105517_j80221399155534_1_alg».proof.Proof.Entry
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array: the perceptron of the seven staged arrays as the region finds them. -/
def result (c : Dev nD) : FVec Ideal S100000x128 .f32 :=
  Cert.Perceptron.mlp (M := 100000) (V m c main_arg0 : FVec Ideal S100000x128 .f32) (V m c main_v9 : FVec Ideal S100000x128 .f32)
    (V m c main_v19 : FVec Ideal S100000x128 .f32) (V m c main_arg3 : FVec Ideal S128x128 .f32) (V m c main_v20 : FVec Ideal S1x128 .f32)
    (V m c main_arg5 : FVec Ideal S128x128 .f32) (V m c main_v21 : FVec Ideal S1x128 .f32)

/-- The index maps over the grid: the three row-blocked inputs move with the output's row block; the weights and the
    bias rows stay at block zero; the output's row block is one of 25. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 24 ∧ win0_7.index t (1 : Fin 2) = 0 :=
  (by decide +kernel : ∀ t : Fin grid0.N, _)

/-- Every row block of the result is some point's. -/
theorem idx_onto : ∀ q0 : Fin 25, ∃ t : Fin cfg0.N, win0_7.index t = ![q0.val, 0] :=
  (by decide +kernel : ∀ q0 : Fin 25, ∃ t : Fin grid0.N, win0_7.index t = ![q0.val, 0])

/-! ## The input blocks as rows of their arrays -/

/-- The feature block at point t, at (y0, y1), is the feature array at (4000 · block + y0, y1). -/
theorem read0 (c : Dev nD) (t : Fin cfg0.N) (y : S4000x128.Idx) (k : S100000x128.Idx)
    (hk0 : (k 0).val = win0_7.index t (0 : Fin 2) * 4000 + (y 0).val) (hk1 : (k 1).val = (y 1).val) :
    (iblk m c 0 t : Vec Ideal S4000x128 .f32) y = (V m c main_arg0 : FVec Ideal S100000x128 .f32) k := by
  obtain ⟨e0, e1, -⟩ := idx_facts t
  unfold iblk
  rw [View.read_apply]
  show V m c main_arg0 _ = V m c main_arg0 k
  refine congrArg (V m c main_arg0) ?_
  funext a
  apply Fin.ext
  match a with
  | ⟨0, _⟩ => show win0_0.index t (0 : Fin 2) * 4000 + 1 * (y 0).val = (k 0).val; omega
  | ⟨1, _⟩ => show win0_0.index t (1 : Fin 2) * 128 + 1 * (y 1).val = (k 1).val; omega

/-- The same for the first aggregate. -/
theorem read1 (c : Dev nD) (t : Fin cfg0.N) (y : S4000x128.Idx) (k : S100000x128.Idx)
    (hk0 : (k 0).val = win0_7.index t (0 : Fin 2) * 4000 + (y 0).val) (hk1 : (k 1).val = (y 1).val) :
    (iblk m c 1 t : Vec Ideal S4000x128 .f32) y = (V m c main_v9 : FVec Ideal S100000x128 .f32) k := by
  obtain ⟨-, -, e0, e1, -⟩ := idx_facts t
  unfold iblk
  rw [View.read_apply]
  show V m c main_v9 _ = V m c main_v9 k
  refine congrArg (V m c main_v9) ?_
  funext a
  apply Fin.ext
  match a with
  | ⟨0, _⟩ => show win0_1.index t (0 : Fin 2) * 4000 + 1 * (y 0).val = (k 0).val; omega
  | ⟨1, _⟩ => show win0_1.index t (1 : Fin 2) * 128 + 1 * (y 1).val = (k 1).val; omega

/-- The same for the second aggregate. -/
theorem read2 (c : Dev nD) (t : Fin cfg0.N) (y : S4000x128.Idx) (k : S100000x128.Idx)
    (hk0 : (k 0).val = win0_7.index t (0 : Fin 2) * 4000 + (y 0).val) (hk1 : (k 1).val = (y 1).val) :
    (iblk m c 2 t : Vec Ideal S4000x128 .f32) y = (V m c main_v19 : FVec Ideal S100000x128 .f32) k := by
  obtain ⟨-, -, -, -, e0, e1, -⟩ := idx_facts t
  unfold iblk
  rw [View.read_apply]
  show V m c main_v19 _ = V m c main_v19 k
  refine congrArg (V m c main_v19) ?_
  funext a
  apply Fin.ext
  match a with
  | ⟨0, _⟩ => show win0_2.index t (0 : Fin 2) * 4000 + 1 * (y 0).val = (k 0).val; omega
  | ⟨1, _⟩ => show win0_2.index t (1 : Fin 2) * 128 + 1 * (y 1).val = (k 1).val; omega

/-- The first weight matrix is staged whole at every point. -/
theorem read3 (c : Dev nD) (t : Fin cfg0.N) :
    (iblk m c 3 t : Vec Ideal S128x128 .f32) = (V m c main_arg3 : FVec Ideal S128x128 .f32) := by
  obtain ⟨-, -, -, -, -, -, e0, e1, -⟩ := idx_facts t
  funext y
  unfold iblk
  rw [View.read_apply]
  show V m c main_arg3 _ = V m c main_arg3 y
  refine congrArg (V m c main_arg3) ?_
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The first bias row is staged whole at every point. -/
theorem read4 (c : Dev nD) (t : Fin cfg0.N) :
    (iblk m c 4 t : Vec Ideal S1x128 .f32) = (V m c main_v20 : FVec Ideal S1x128 .f32) := by
  obtain ⟨-, -, -, -, -, -, -, -, e0, e1, -⟩ := idx_facts t
  funext y
  unfold iblk
  rw [View.read_apply]
  show V m c main_v20 _ = V m c main_v20 y
  refine congrArg (V m c main_v20) ?_
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The second weight matrix is staged whole at every point. -/
theorem read5 (c : Dev nD) (t : Fin cfg0.N) :
    (iblk m c 5 t : Vec Ideal S128x128 .f32) = (V m c main_arg5 : FVec Ideal S128x128 .f32) := by
  obtain ⟨-, -, -, -, -, -, -, -, -, -, e0, e1, -⟩ := idx_facts t
  funext y
  unfold iblk
  rw [View.read_apply]
  show V m c main_arg5 _ = V m c main_arg5 y
  refine congrArg (V m c main_arg5) ?_
  funext a
  apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The second bias row is staged whole at every point. -/
theorem read6 (c : Dev nD) (t : Fin cfg0.N) :
    (iblk m c 6 t : Vec Ideal S1x128 .f32) = (V m c main_v21 : FVec Ideal S1x128 .f32) := by
  obtain ⟨-, -, -, -, -, -, -, -, -, -, -, -, e0, e1, -⟩ := idx_facts t
  funext y
  unfold iblk
  rw [View.read_apply]
  show V m c main_v21 _ = V m c main_v21 y
  refine congrArg (V m c main_v21) ?_
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## What a point writes back, the cover, and the array after the run -/

/-- WHAT POINT t WRITES BACK is its block of rows of `result`. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S4000x128) hz, View.ld_unit_zero (S := S128x128) hz, View.ld_unit_zero (S := S1x128) hz]
  rw [Cert.KernelIdeal.Body.pay_eq]
  obtain ⟨-, -, -, -, -, -, -, -, -, -, -, -, -, -, e70, e71⟩ := idx_facts t
  funext j
  obtain ⟨p, q, rfl⟩ : ∃ (p : Fin 4000) (q : Fin 128), j = ix2 p q := ⟨j 0, j 1, eq_ix2 j⟩
  have hr : win0_7.index t (0 : Fin 2) * 4000 + p.val < 100000 := by have := p.isLt; omega
  have hemb : (((cfg0.win 7).blk t).view.emb (ix2 p q) : S100000x128.Idx)
      = ix2 (⟨win0_7.index t (0 : Fin 2) * 4000 + p.val, hr⟩ : Fin 100000) q := by
    funext a
    apply Fin.ext
    match a with
    | ⟨0, _⟩ => show win0_7.index t (0 : Fin 2) * 4000 + 1 * p.val = win0_7.index t (0 : Fin 2) * 4000 + p.val; omega
    | ⟨1, _⟩ => show win0_7.index t (1 : Fin 2) * 128 + 1 * q.val = q.val; omega
  show Cert.Perceptron.mlp (M := 4000) (iblk m c 0 t) (iblk m c 1 t) (iblk m c 2 t) (iblk m c 3 t) (iblk m c 4 t) (iblk m c 5 t) (iblk m c 6 t) (ix2 p q)
      = result m c (((cfg0.win 7).blk t).view.emb (ix2 p q))
  rw [hemb]
  unfold result
  exact Cert.Perceptron.mlp_row (iblk m c 0 t) (iblk m c 1 t) (iblk m c 2 t)
    (V m c main_arg0 : FVec Ideal S100000x128 .f32) (V m c main_v9 : FVec Ideal S100000x128 .f32) (V m c main_v19 : FVec Ideal S100000x128 .f32)
    (iblk m c 3 t) (V m c main_arg3 : FVec Ideal S128x128 .f32) (iblk m c 4 t) (V m c main_v20 : FVec Ideal S1x128 .f32)
    (iblk m c 5 t) (V m c main_arg5 : FVec Ideal S128x128 .f32) (iblk m c 6 t) (V m c main_v21 : FVec Ideal S1x128 .f32)
    p ⟨win0_7.index t (0 : Fin 2) * 4000 + p.val, hr⟩ q
    (fun k => read0 m c t (ix2 p k) (ix2 ⟨win0_7.index t (0 : Fin 2) * 4000 + p.val, hr⟩ k) rfl rfl)
    (fun k => read1 m c t (ix2 p k) (ix2 ⟨win0_7.index t (0 : Fin 2) * 4000 + p.val, hr⟩ k) rfl rfl)
    (fun k => read2 m c t (ix2 p k) (ix2 ⟨win0_7.index t (0 : Fin 2) * 4000 + p.val, hr⟩ k) rfl rfl)
    (read3 m c t) (read4 m c t) (read5 m c t) (read6 m c t)

/-- An index of the result array is in point t's block iff each coordinate is in the block's range on its axis. -/
theorem mem_blk (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v22).slice (win0_7.rect t)).set ↔ _
  rw [View.set_slice_whole, Rect.mem_set_unit]
  exact Iff.rfl

/-- THE COVER: row r of the result is in the block of the point whose row block is r / 4000. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := idx_onto ⟨(i 0).val / 4000, by omega⟩
  have q0 : win0_7.index t (0 : Fin 2) = (i 0).val / 4000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- THE ARRAY after the run is `result`. -/
theorem final (c : Dev nD) : (dats m 0 c).arrAt 7 cfg0.N = result m c :=
  (dats m 0 c).arrAt_eq_of_cover 7 (result m c) (fun t _ => flushed_eq m c t) cover

/-- `result` in terms of the launch contents of the arguments: the feature array, the two aggregates of it, the two
    weight matrices, and the two bias vectors as one-row arrays. -/
theorem result_eq (c : Dev nD) : result m c
    = Cert.Perceptron.mlp (M := 100000) (m ((c : Thread nD τ).loc main_arg0))
        (Entry.aggregate (m ((c : Thread nD τ).loc main_arg0)) (m ((c : Thread nD τ).loc main_arg1)) (m ((c : Thread nD τ).loc main_arg2)))
        (Entry.aggregate (m ((c : Thread nD τ).loc main_arg0)) (m ((c : Thread nD τ).loc main_arg2)) (m ((c : Thread nD τ).loc main_arg1)))
        (m ((c : Thread nD τ).loc main_arg3))
        (shapeCast S1x128 (m ((c : Thread nD τ).loc main_arg4)) shapeCasts_S128_S1x128)
        (m ((c : Thread nD τ).loc main_arg5))
        (shapeCast S1x128 (m ((c : Thread nD τ).loc main_arg6)) shapeCasts_S128_S1x128) := by
  unfold result
  rw [V_main_arg0, V_main_arg3, V_main_arg5, Entry.entry_v9, Entry.entry_v19, Entry.entry_v20, Entry.entry_v21]

/-- The run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v22) = Cert.Perceptron.mlp (M := 100000) (m ((c : Thread nD τ).loc main_arg0))
        (Entry.aggregate (m ((c : Thread nD τ).loc main_arg0)) (m ((c : Thread nD τ).loc main_arg1)) (m ((c : Thread nD τ).loc main_arg2)))
        (Entry.aggregate (m ((c : Thread nD τ).loc main_arg0)) (m ((c : Thread nD τ).loc main_arg2)) (m ((c : Thread nD τ).loc main_arg1)))
        (m ((c : Thread nD τ).loc main_arg3))
        (shapeCast S1x128 (m ((c : Thread nD τ).loc main_arg4)) shapeCasts_S128_S1x128)
        (m ((c : Thread nD τ).loc main_arg5))
        (shapeCast S1x128 (m ((c : Thread nD τ).loc main_arg6)) shapeCasts_S128_S1x128)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (result_eq m c)), (h c).2⟩)
    (Cert.KernelIdeal.Value.run_blocks m ρ)

end Cert.KernelIdeal.Whole

end
-- ==== Proof.RefSpec.lean ====
/-
  The reference's result as the two-layer perceptron. The reference adds the two aggregates to the feature array,
  takes the host's dot product with the first weight matrix, adds the first bias vector broadcast over the rows, takes
  the maximum with zero, takes the dot product with the second weight matrix and adds the second bias vector. At the
  extended reals each dot product is the plain sum of products over the inner index, so the result is the perceptron of
  the feature array, the two aggregates, the weights, and each bias vector laid out as a one-row array.
-/
import proofs.«105517_j80221399155534_1_alg».proof.Proof.Gen.ReferenceIdeal.Read
import proofs.«105517_j80221399155534_1_alg».proof.Proof.Perceptron

noncomputable section

namespace Cert.ReferenceIdeal.Spec

open Cert.ReferenceIdeal Cert.ReferenceIdeal.Gen Cert.ReferenceIdeal.Read
open Idealize.ShloMosaic Idealize.ShloMosaic.ValueIdx Cert.PlainDot

/-- A vector of 128 entries as a one-row array. -/
def row (b : (⟨S128, .f32⟩ : BufTy).Contents (Elt Ideal)) : (⟨2, ![1, 128]⟩ : Shape).Idx → EReal :=
  fun j => b (ix1 (n := 128) (j 1))

/-! The generated index functions of the two dot products and of the two broadcasts, at an index given by its coordinates. -/

theorem lidx22 (r : Fin 100000) (c k : Fin 128) : lidx_main_v22 (ix2 r c) k = ix2 r k :=
  funext fun a => by match a with | ⟨0, _⟩ => rfl | ⟨1, _⟩ => rfl
theorem ridx22 (r : Fin 100000) (c k : Fin 128) : ridx_main_v22 (ix2 r c) k = ix2 k c :=
  funext fun a => by match a with | ⟨0, _⟩ => rfl | ⟨1, _⟩ => rfl
theorem lidx27 (r : Fin 100000) (c k : Fin 128) : lidx_main_v27 (ix2 r c) k = ix2 r k :=
  funext fun a => by match a with | ⟨0, _⟩ => rfl | ⟨1, _⟩ => rfl
theorem ridx27 (r : Fin 100000) (c k : Fin 128) : ridx_main_v27 (ix2 r c) k = ix2 k c :=
  funext fun a => by match a with | ⟨0, _⟩ => rfl | ⟨1, _⟩ => rfl
theorem bidx24 (r : Fin 100000) (c : Fin 128) : idx_main_v23 (idx_main_v24 (ix2 r c)) = ix1 c :=
  funext fun a => by match a with | ⟨0, _⟩ => rfl
theorem bidx29 (r : Fin 100000) (c : Fin 128) : idx_main_v28 (idx_main_v29 (ix2 r c)) = ix1 c :=
  funext fun a => by match a with | ⟨0, _⟩ => rfl

variable (x0 : (⟨S100000x128, .f32⟩ : BufTy).Contents (Elt Ideal)) (x1 x2 : (⟨S600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))

/-- The first layer before the rectifier: the summed rows times the first weights plus the first bias row. -/
theorem pre_eq : val_main_v25 (F := Ideal) x0 x1 x2 x3 x4
    = affine (M := 100000) (val_main_v21 (F := Ideal) x0 x1 x2) x3 (row x4) := by
  funext i
  obtain ⟨r, c, rfl⟩ : ∃ (r : Fin 100000) (c : Fin 128), i = ix2 r c := ⟨i 0, i 1, eq_ix2 i⟩
  rw [val_main_v25_apply, val_main_v22_apply, val_main_v24_apply, val_main_v23_apply, bidx24]
  simp only [lidx22, ridx22]
  rfl

/-- The first layer: the same, rectified. -/
theorem hidden_eq : val_main_v26 (F := Ideal) x0 x1 x2 x3 x4
    = affineRelu (M := 100000) (val_main_v21 (F := Ideal) x0 x1 x2) x3 (row x4) := by
  funext i
  rw [val_main_v26_apply, pre_eq, val_main_call0_v0_apply, val_main_call0_cst_apply]
  rfl

/-- The second layer: the first layer's rows times the second weights plus the second bias row. -/
theorem out_eq : val_main_v30 (F := Ideal) x0 x1 x2 x3 x4 x5 x6
    = affine (M := 100000) (val_main_v26 (F := Ideal) x0 x1 x2 x3 x4) x5 (row x6) := by
  funext i
  obtain ⟨r, c, rfl⟩ : ∃ (r : Fin 100000) (c : Fin 128), i = ix2 r c := ⟨i 0, i 1, eq_ix2 i⟩
  rw [val_main_v30_apply, val_main_v27_apply, val_main_v29_apply, val_main_v28_apply, bidx29]
  simp only [lidx27, ridx27]
  rfl

/-- THE REFERENCE'S RESULT is the perceptron of the feature array and its two aggregates. -/
theorem ref_eq : val_main_v30 (F := Ideal) x0 x1 x2 x3 x4 x5 x6
    = Cert.Perceptron.mlp (M := 100000) x0 (val_main_v9 (F := Ideal) x0 x1 x2) (val_main_v19 (F := Ideal) x0 x1 x2)
        x3 (row x4) x5 (row x6) := by
  rw [out_eq, hidden_eq]
  rfl

end Cert.ReferenceIdeal.Spec

end
-- ==== Proof.lean ====
/-
  A graph layer: every node keeps its own feature row plus the sum of its neighbours' rows over the undirected edges
  (ref_a, ref_b), and the summed rows go through a two-layer perceptron (a rectifier between the layers).
  The kernel program forms the two neighbour aggregates on the host exactly as the reference does — gather the rows at
  one end of the edges, scatter-add them at the other end, in both directions — and then computes, in one kernel tiled
  over blocks of 4000 nodes, the sum of the three arrays, the product with the first weight matrix, the first bias, the
  rectifier, the product with the second weight matrix and the second bias. The reference computes the same chain with
  whole-array host operations. At the extended reals the kernel's roundings to the narrower float format are the
  identity, and its matrix products into a zero accumulator and the host's dot products are the same plain sums, so
  both results are ONE function of the arguments: the perceptron (Perceptron.lean) of the feature array, the two
  aggregates, the weights and the bias vectors laid out as rows. No algebraic law beyond that reading is used, so the
  finiteness of the inputs is never opened.
  Kernel side: Body.lean (the stored block is the perceptron of the loaded blocks), Entry.lean (the aggregates and bias
  rows as the region finds them), Whole.lean (row locality: each point writes its block of rows of the whole-array
  perceptron; the blocks tile the result). Reference side: RefSpec.lean. Here: the two programs' aggregates and bias
  rows are the same terms, and the five conjuncts.
-/
import proofs.«105517_j80221399155534_1_alg».proof.Defs
import proofs.«105517_j80221399155534_1_alg».proof.Proof.Gen.Kernel
import proofs.«105517_j80221399155534_1_alg».proof.Proof.Gen.Kernel.Skeleton
import proofs.«105517_j80221399155534_1_alg».proof.Proof.Gen.Kernel.Launch
import proofs.«105517_j80221399155534_1_alg».proof.Proof.Gen.Kernel.Points
import proofs.«105517_j80221399155534_1_alg».proof.Proof.Gen.Kernel.Frame
import proofs.«105517_j80221399155534_1_alg».proof.Proof.Gen.KernelIdeal
import proofs.«105517_j80221399155534_1_alg».proof.Proof.Gen.KernelIdeal.Skeleton
import proofs.«105517_j80221399155534_1_alg».proof.Proof.Gen.KernelIdeal.Launch
import proofs.«105517_j80221399155534_1_alg».proof.Proof.Gen.KernelIdeal.Points
import proofs.«105517_j80221399155534_1_alg».proof.Proof.Gen.KernelIdeal.Frame
import proofs.«105517_j80221399155534_1_alg».proof.Proof.Gen.ReferenceIdeal
import proofs.«105517_j80221399155534_1_alg».proof.Proof.Gen.Pre_finite_inputs
import proofs.«105517_j80221399155534_1_alg».proof.Proof.Gen.KernelIdeal.Value
import proofs.«105517_j80221399155534_1_alg».proof.Proof.Gen.ReferenceIdeal.Run
import proofs.«105517_j80221399155534_1_alg».proof.Proof.Gen.ReferenceIdeal.Read
import proofs.«105517_j80221399155534_1_alg».proof.Proof.Whole
import proofs.«105517_j80221399155534_1_alg».proof.Proof.RefSpec
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two programs' host terms are the same -/

/-- The reference's first neighbour aggregate is the kernel program's. -/
theorem agg_a (x0 : (⟨Cert.ReferenceIdeal.S100000x128, .f32⟩ : BufTy).Contents (Elt Ideal))
    (x1 x2 : (⟨Cert.ReferenceIdeal.S600000, .i32⟩ : BufTy).Contents (Elt Ideal)) :
    Cert.ReferenceIdeal.Read.val_main_v9 (F := Ideal) x0 x1 x2 = Cert.KernelIdeal.Entry.aggregate x0 x1 x2 := rfl

/-- The reference's second neighbour aggregate is the kernel program's. -/
theorem agg_b (x0 : (⟨Cert.ReferenceIdeal.S100000x128, .f32⟩ : BufTy).Contents (Elt Ideal))
    (x1 x2 : (⟨Cert.ReferenceIdeal.S600000, .i32⟩ : BufTy).Contents (Elt Ideal)) :
    Cert.ReferenceIdeal.Read.val_main_v19 (F := Ideal) x0 x1 x2 = Cert.KernelIdeal.Entry.aggregate x0 x2 x1 := rfl

/-- A bias vector read as a one-row array is its reshape to one row. -/
theorem row_eq (b : (⟨Cert.ReferenceIdeal.S128, .f32⟩ : BufTy).Contents (Elt Ideal)) :
    Cert.ReferenceIdeal.Spec.row b
      = shapeCast Cert.KernelIdeal.S1x128 b Cert.KernelIdeal.Facts₀.shapeCasts_S128_S1x128 := by
  funext j
  obtain ⟨u, q, rfl⟩ : ∃ (u : Fin 1) (q : Fin 128), j = ix2 u q := ⟨j 0, j 1, eq_ix2 j⟩
  exact (shapeCast_a_1a_apply b _ u q).symm

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the perceptron of the feature array, its two aggregates, the weights and the bias
    rows: the kernel program's by the blocks' cover, the reference's by reading its stages; the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v30_eq, Cert.ReferenceIdeal.Spec.ref_eq, h0, h1, h2, h3, h4, h5, h6,
    agg_a, agg_b, row_eq, row_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
